-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x256 .f32) (main_arg1 : IVec S2x1600000 32) (main_arg2 : FVec F S256x128 .f32) (main_arg3 : FVec F S128 .f32) (main_arg4 : FVec F S128x128 .f32) (main_arg5 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩

abbrev nBuf : Space → Nat
  | .hbm => 128
  | .vmem => 10
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x128, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S1650000x1, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S1650000, .f32⟩
  | .hbm, ⟨74, _⟩ => ⟨S_, .f32⟩
  | .hbm, ⟨75, _⟩ => ⟨S50000, .f32⟩
  | .hbm, ⟨76, _⟩ => ⟨S1650000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x128, .f32⟩
  | .hbm, ⟨90, _⟩ => ⟨S_, .i32⟩
  | .hbm, ⟨91, _⟩ => ⟨S1650000, .i32⟩
  | .hbm, ⟨92, _⟩ => ⟨S1650000, .i1⟩
  | .hbm, ⟨93, _⟩ => ⟨S_, .i32⟩
  | .hbm, ⟨94, _⟩ => ⟨S1650000, .i32⟩
  | .hbm, ⟨95, _⟩ => ⟨S1650000, .i32⟩
  | .hbm, ⟨96, _⟩ => ⟨S1650000, .i32⟩
  | .hbm, ⟨97, _⟩ => ⟨S1650000x1, .i32⟩
  | .hbm, ⟨98, _⟩ => ⟨S1650000, .f32⟩
  | .hbm, ⟨99, _⟩ => ⟨S_, .i32⟩
  | .hbm, ⟨100, _⟩ => ⟨S1650000, .i32⟩
  | .hbm, ⟨101, _⟩ => ⟨S1650000, .i1⟩
  | .hbm, ⟨102, _⟩ => ⟨S_, .i32⟩
  | .hbm, ⟨103, _⟩ => ⟨S1650000, .i32⟩
  | .hbm, ⟨104, _⟩ => ⟨S1650000, .i32⟩
  | .hbm, ⟨105, _⟩ => ⟨S1650000, .i32⟩
  | .hbm, ⟨106, _⟩ => ⟨S1650000x1, .i32⟩
  | .hbm, ⟨107, _⟩ => ⟨S1650000, .f32⟩
  | .hbm, ⟨108, _⟩ => ⟨S1650000, .f32⟩
  | .hbm, ⟨109, _⟩ => ⟨S1650000x1, .f32⟩
  | .hbm, ⟨110, _⟩ => ⟨S_, .i32⟩
  | .hbm, ⟨111, _⟩ => ⟨S1650000, .i32⟩
  | .hbm, ⟨112, _⟩ => ⟨S1650000, .i1⟩
  | .hbm, ⟨113, _⟩ => ⟨S_, .i32⟩
  | .hbm, ⟨114, _⟩ => ⟨S1650000, .i32⟩
  | .hbm, ⟨115, _⟩ => ⟨S1650000, .i32⟩
  | .hbm, ⟨116, _⟩ => ⟨S1650000, .i32⟩
  | .hbm, ⟨117, _⟩ => ⟨S1650000x1, .i32⟩
  | .hbm, ⟨118, _⟩ => ⟨S1650000x128, .f32⟩
  | .hbm, ⟨119, _⟩ => ⟨S1650000x128, .f32⟩
  | .hbm, ⟨120, _⟩ => ⟨S1650000x128, .f32⟩
  | .hbm, ⟨121, _⟩ => ⟨S_, .f32⟩
  | .hbm, ⟨122, _⟩ => ⟨S50000x128, .f32⟩
  | .hbm, ⟨123, _⟩ => ⟨S1650000x1, .i32⟩
  | .hbm, ⟨124, _⟩ => ⟨S50000x128, .f32⟩
  | .hbm, ⟨125, _⟩ => ⟨S1x128, .f32⟩
  | .hbm, ⟨126, _⟩ => ⟨S50000x128, .f32⟩
  | .hbm, ⟨127, _⟩ => ⟨S50000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  scatter_S50000_S1650000x1_S1650000_n_0_0_1_wf : ScatterDims.WF S50000 S1650000x1 S1650000 [] [0] [0] 1
  dot_S5000x256_S256x128_S5000x128_1_0_0_1_n_n_wf : DotDims.WF S5000x256 S256x128 S5000x128 [1] [0] [0] [1] [] []
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v60) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩

abbrev nBuf : Space → Nat
  | .hbm => 128
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S50000, .i32⟩
  | .hbm, ⟨7, _⟩ => ⟨S1x1600000, .i32⟩
  | .hbm, ⟨8, _⟩ => ⟨S1600000, .i32⟩
  | .hbm, ⟨9, _⟩ => ⟨S1650000, .i32⟩
  | .hbm, ⟨10, _⟩ => ⟨S1x1600000, .i32⟩
  | .hbm, ⟨11, _⟩ => ⟨S1600000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x128, .f32⟩
  | .hbm, ⟨31, _⟩ => ⟨S_, .i32⟩
  | .hbm, ⟨32, _⟩ => ⟨S1650000, .i32⟩
  | .hbm, ⟨33, _⟩ => ⟨S1650000, .i1⟩
  | .hbm, ⟨34, _⟩ => ⟨S_, .i32⟩
  | .hbm, ⟨35, _⟩ => ⟨S1650000, .i32⟩
  | .hbm, ⟨36, _⟩ => ⟨S1650000, .i32⟩
  | .hbm, ⟨37, _⟩ => ⟨S1650000, .i32⟩
  | .hbm, ⟨38, _⟩ => ⟨S1650000x1, .i32⟩
  | .hbm, ⟨39, _⟩ => ⟨S1650000, .f32⟩
  | .hbm, ⟨40, _⟩ => ⟨S_, .i32⟩
  | .hbm, ⟨41, _⟩ => ⟨S1650000, .i32⟩
  | .hbm, ⟨42, _⟩ => ⟨S1650000, .i1⟩
  | .hbm, ⟨43, _⟩ => ⟨S_, .i32⟩
  | .hbm, ⟨44, _⟩ => ⟨S1650000, .i32⟩
  | .hbm, ⟨45, _⟩ => ⟨S1650000, .i32⟩
  | .hbm, ⟨46, _⟩ => ⟨S1650000, .i32⟩
  | .hbm, ⟨47, _⟩ => ⟨S1650000x1, .i32⟩
  | .hbm, ⟨48, _⟩ => ⟨S1650000, .f32⟩
  | .hbm, ⟨49, _⟩ => ⟨S1650000, .f32⟩
  | .hbm, ⟨50, _⟩ => ⟨S1650000x1, .f32⟩
  | .hbm, ⟨51, _⟩ => ⟨S_, .i32⟩
  | .hbm, ⟨52, _⟩ => ⟨S1650000, .i32⟩
  | .hbm, ⟨53, _⟩ => ⟨S1650000, .i1⟩
  | .hbm, ⟨54, _⟩ => ⟨S_, .i32⟩
  | .hbm, ⟨55, _⟩ => ⟨S1650000, .i32⟩
  | .hbm, ⟨56, _⟩ => ⟨S1650000, .i32⟩
  | .hbm, ⟨57, _⟩ => ⟨S1650000, .i32⟩
  | .hbm, ⟨58, _⟩ => ⟨S1650000x1, .i32⟩
  | .hbm, ⟨59, _⟩ => ⟨S1650000x128, .f32⟩
  | .hbm, ⟨60, _⟩ => ⟨S1650000x128, .f32⟩
  | .hbm, ⟨61, _⟩ => ⟨S1650000x128, .f32⟩
  | .hbm, ⟨62, _⟩ => ⟨S_, .f32⟩
  | .hbm, ⟨63, _⟩ => ⟨S50000x128, .f32⟩
  | .hbm, ⟨64, _⟩ => ⟨S1650000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S50000x128, .f32⟩
  | .hbm, ⟨69, _⟩ => ⟨S_, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S1650000, .f32⟩
  | .hbm, ⟨74, _⟩ => ⟨S_, .f32⟩
  | .hbm, ⟨75, _⟩ => ⟨S50000, .f32⟩
  | .hbm, ⟨76, _⟩ => ⟨S1650000x1, .i32⟩
  | .hbm, ⟨77, _⟩ => ⟨S50000, .f32⟩
  | .hbm, ⟨78, _⟩ => ⟨S_, .f32⟩
  | .hbm, ⟨79, _⟩ => ⟨S50000, .f32⟩
  | .hbm, ⟨80, _⟩ => ⟨S50000, .i1⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S50000, .f32⟩
  | .hbm, ⟨85, _⟩ => ⟨S_, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x128, .f32⟩
  | .hbm, ⟨90, _⟩ => ⟨S_, .i32⟩
  | .hbm, ⟨91, _⟩ => ⟨S1650000, .i32⟩
  | .hbm, ⟨92, _⟩ => ⟨S1650000, .i1⟩
  | .hbm, ⟨93, _⟩ => ⟨S_, .i32⟩
  | .hbm, ⟨94, _⟩ => ⟨S1650000, .i32⟩
  | .hbm, ⟨95, _⟩ => ⟨S1650000, .i32⟩
  | .hbm, ⟨96, _⟩ => ⟨S1650000, .i32⟩
  | .hbm, ⟨97, _⟩ => ⟨S1650000x1, .i32⟩
  | .hbm, ⟨98, _⟩ => ⟨S1650000, .f32⟩
  | .hbm, ⟨99, _⟩ => ⟨S_, .i32⟩
  | .hbm, ⟨100, _⟩ => ⟨S1650000, .i32⟩
  | .hbm, ⟨101, _⟩ => ⟨S1650000, .i1⟩
  | .hbm, ⟨102, _⟩ => ⟨S_, .i32⟩
  | .hbm, ⟨103, _⟩ => ⟨S1650000, .i32⟩
  | .hbm, ⟨104, _⟩ => ⟨S1650000, .i32⟩
  | .hbm, ⟨105, _⟩ => ⟨S1650000, .i32⟩
  | .hbm, ⟨106, _⟩ => ⟨S1650000x1, .i32⟩
  | .hbm, ⟨107, _⟩ => ⟨S1650000, .f32⟩
  | .hbm, ⟨108, _⟩ => ⟨S1650000, .f32⟩
  | .hbm, ⟨109, _⟩ => ⟨S1650000x1, .f32⟩
  | .hbm, ⟨110, _⟩ => ⟨S_, .i32⟩
  | .hbm, ⟨111, _⟩ => ⟨S1650000, .i32⟩
  | .hbm, ⟨112, _⟩ => ⟨S1650000, .i1⟩
  | .hbm, ⟨113, _⟩ => ⟨S_, .i32⟩
  | .hbm, ⟨114, _⟩ => ⟨S1650000, .i32⟩
  | .hbm, ⟨115, _⟩ => ⟨S1650000, .i32⟩
  | .hbm, ⟨116, _⟩ => ⟨S1650000, .i32⟩
  | .hbm, ⟨117, _⟩ => ⟨S1650000x1, .i32⟩
  | .hbm, ⟨118, _⟩ => ⟨S1650000x128, .f32⟩
  | .hbm, ⟨119, _⟩ => ⟨S1650000x128, .f32⟩
  | .hbm, ⟨120, _⟩ => ⟨S1650000x128, .f32⟩
  | .hbm, ⟨121, _⟩ => ⟨S_, .f32⟩
  | .hbm, ⟨122, _⟩ => ⟨S50000x128, .f32⟩
  | .hbm, ⟨123, _⟩ => ⟨S1650000x1, .i32⟩
  | .hbm, ⟨124, _⟩ => ⟨S50000x128, .f32⟩
  | .hbm, ⟨125, _⟩ => ⟨S1x128, .f32⟩
  | .hbm, ⟨126, _⟩ => ⟨S50000x128, .f32⟩
  | .hbm, ⟨127, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_v17 : Ref sig .tc := ⟨.hbm, 30, rfl⟩
abbrev main_c : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_cst_13 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_call2_v0 : Ref sig .tc := ⟨.hbm, 86, rfl⟩
abbrev main_call2_v1 : Ref sig .tc := ⟨.hbm, 87, rfl⟩
abbrev main_v59 : Ref sig .tc := ⟨.hbm, 88, rfl⟩
abbrev main_v60 : Ref sig .tc := ⟨.hbm, 89, rfl⟩
abbrev main_c_15 : Ref sig .tc := ⟨.hbm, 90, rfl⟩
abbrev main_v61 : Ref sig .tc := ⟨.hbm, 91, rfl⟩
abbrev main_v62 : Ref sig .tc := ⟨.hbm, 92, rfl⟩
abbrev main_c_16 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_c_17 : Ref sig .tc := ⟨.hbm, 99, rfl⟩
abbrev main_v68 : Ref sig .tc := ⟨.hbm, 100, rfl⟩
abbrev main_v69 : Ref sig .tc := ⟨.hbm, 101, rfl⟩
abbrev main_c_18 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_19 : Ref sig .tc := ⟨.hbm, 110, rfl⟩
abbrev main_v77 : Ref sig .tc := ⟨.hbm, 111, rfl⟩
abbrev main_v78 : Ref sig .tc := ⟨.hbm, 112, rfl⟩
abbrev main_c_20 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_21 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S1650000x1_S1650000_n_0_0_1_wf : ScatterDims.WF S50000 S1650000x1 S1650000 [] [0] [0] 1
  dot_S50000x256_S256x128_S50000x128_1_0_0_1_n_n_wf : DotDims.WF S50000x256 S256x128 S50000x128 [1] [0] [0] [1] [] []
  gather_S50000_S1650000x1_S1650000_n_0_n_n_0_1_1_wf : GatherDims.WF S50000 S1650000x1 S1650000 [] [0] [] [0] [] 1 ![1]
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RefStretches.lean ====
/-
  The reference's @main, cut where the kernel's @main has its two pallas_calls. The reference is a straight line of 122
  host operations; two of them are the matrix products `x · W1` and `relu(…) · W2`. Around them stand three stretches:
  the edge list with its self loops and the degree normalisation (24 operations), the first layer's aggregation, bias and
  relu together with the second normalisation (58 operations), and the second layer's aggregation and bias (38
  operations). The buffer contents after the whole line are then the three stretches' folds with the two products
  between them.
-/
import proofs.«136716_j46703474376725_1_alg».proof.Proof.RefOps
import Idealize.ShloMosaic.Lib.Pipeline.Frame

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The line is the three stretches with the two products between them. -/
theorem ops_eq : (ops : List (HloOp τ sig (Elt F))) = opsA ++ dot1 :: (opsB ++ dot2 :: opsC) := rfl

/-- The contents after the whole line, stretch by stretch. -/
theorem after_ops (W : Valuation τ sig (Elt F)) :
    after ops W = after opsC (dot2.result (after opsB (dot1.result (after opsA W)))) := by
  rw [ops_eq, StableHlo.after_append, after_cons, StableHlo.after_append, after_cons]

end Cert.ReferenceIdeal.Fold

end
-- ==== Proof.StretchPairs.lean ====
/-
  The kernel's @main and the reference's @main apply the SAME host operations around their matrix products. Each lemma
  here takes one stretch of host operations on the kernel's side and the same stretch on the reference's side, run from
  two buffer valuations that agree on the buffers the stretch reads, and says that the two folds agree on a buffer the
  stretch writes: both are the same composition of the same operations on equal operands. Nothing is said of floats: the
  lemmas hold at every instance of the float operations.
-/
import proofs.«136716_j46703474376725_1_alg».proof.Proof.Gen.KernelIdeal.Launch
import proofs.«136716_j46703474376725_1_alg».proof.Proof.RefStretches

noncomputable section

namespace Cert.KernelIdeal.Pair

open Idealize.ShloMosaic Idealize.ShloMosaic.TcCoe Idealize.SL.Sem Idealize.ShloMosaic.StableHlo
open Cert.KernelIdeal Cert.KernelIdeal.Gen

variable {F : FTy → Type} [FloatOps F]
variable (WK : Valuation τ sig (Elt F)) (WR : Valuation Cert.ReferenceIdeal.τ Cert.ReferenceIdeal.sig (Elt F))

/-! ## The first stretch: the edge endpoints with their self loops, the in-degree and its inverse square root -/

/-- The source node of every edge, the self loops appended: a function of the edge list alone. -/
theorem pre_v3
    (h1 : WK (Proc.devRef .tc main_arg1) = WR (Proc.devRef .tc Cert.ReferenceIdeal.main_arg1)) :
    after hostOps0_1 (after hostOps0 WK) (Proc.devRef .tc main_v3)
      = after Cert.ReferenceIdeal.Fold.opsA WR (Proc.devRef .tc Cert.ReferenceIdeal.main_v3) := by
  after_results
  rw [h1]
  rfl

set_option maxHeartbeats 8000000 in
/-- The destination node of every edge, the self loops appended: a function of the edge list alone. -/
theorem pre_v6
    (h1 : WK (Proc.devRef .tc main_arg1) = WR (Proc.devRef .tc Cert.ReferenceIdeal.main_arg1)) :
    after hostOps0_1 (after hostOps0 WK) (Proc.devRef .tc main_v6)
      = after Cert.ReferenceIdeal.Fold.opsA WR (Proc.devRef .tc Cert.ReferenceIdeal.main_v6) := by
  after_results
  rw [h1]
  rfl

set_option maxHeartbeats 8000000 in
/-- The inverse square root of the in-degree, zero where the degree is not positive: a function of the edge list alone. -/
theorem pre_v16
    (h1 : WK (Proc.devRef .tc main_arg1) = WR (Proc.devRef .tc Cert.ReferenceIdeal.main_arg1)) :
    after hostOps0_1 (after hostOps0 WK) (Proc.devRef .tc main_v16)
      = after Cert.ReferenceIdeal.Fold.opsA WR (Proc.devRef .tc Cert.ReferenceIdeal.main_v16) := by
  after_results
  rw [h1]
  rfl

/-- The stretch writes no argument array: argument 0 passes through. -/
theorem pre_arg0
    (h : WK (Proc.devRef .tc main_arg0) = WR (Proc.devRef .tc Cert.ReferenceIdeal.main_arg0)) :
    after hostOps0_1 (after hostOps0 WK) (Proc.devRef .tc main_arg0)
      = after Cert.ReferenceIdeal.Fold.opsA WR (Proc.devRef .tc Cert.ReferenceIdeal.main_arg0) := by
  after_results_simp
  exact h

/-- The stretch writes no argument array: argument 2 passes through. -/
theorem pre_arg2
    (h : WK (Proc.devRef .tc main_arg2) = WR (Proc.devRef .tc Cert.ReferenceIdeal.main_arg2)) :
    after hostOps0_1 (after hostOps0 WK) (Proc.devRef .tc main_arg2)
      = after Cert.ReferenceIdeal.Fold.opsA WR (Proc.devRef .tc Cert.ReferenceIdeal.main_arg2) := by
  after_results_simp
  exact h

/-- The stretch writes no argument array: argument 3 passes through. -/
theorem pre_arg3
    (h : WK (Proc.devRef .tc main_arg3) = WR (Proc.devRef .tc Cert.ReferenceIdeal.main_arg3)) :
    after hostOps0_1 (after hostOps0 WK) (Proc.devRef .tc main_arg3)
      = after Cert.ReferenceIdeal.Fold.opsA WR (Proc.devRef .tc Cert.ReferenceIdeal.main_arg3) := by
  after_results_simp
  exact h

/-- The stretch writes no argument array: argument 4 passes through. -/
theorem pre_arg4
    (h : WK (Proc.devRef .tc main_arg4) = WR (Proc.devRef .tc Cert.ReferenceIdeal.main_arg4)) :
    after hostOps0_1 (after hostOps0 WK) (Proc.devRef .tc main_arg4)
      = after Cert.ReferenceIdeal.Fold.opsA WR (Proc.devRef .tc Cert.ReferenceIdeal.main_arg4) := by
  after_results_simp
  exact h

/-- The stretch writes no argument array: argument 5 passes through. -/
theorem pre_arg5
    (h : WK (Proc.devRef .tc main_arg5) = WR (Proc.devRef .tc Cert.ReferenceIdeal.main_arg5)) :
    after hostOps0_1 (after hostOps0 WK) (Proc.devRef .tc main_arg5)
      = after Cert.ReferenceIdeal.Fold.opsA WR (Proc.devRef .tc Cert.ReferenceIdeal.main_arg5) := by
  after_results_simp
  exact h

/-! ## The reference's two matrix products, as single operations -/

/-- The first product writes `x · W1` into its result buffer. -/
theorem dot1_v17 :
    (Cert.ReferenceIdeal.Fold.dot1 (F := F)).result WR (Proc.devRef .tc Cert.ReferenceIdeal.main_v17)
      = Host.dotGeneral (φ₁ := .f32) (φ₂ := .f32) Cert.ReferenceIdeal.dot_S50000x256_S256x128_S50000x128_1_0_0_1_n_n none (WR (Proc.devRef .tc Cert.ReferenceIdeal.main_arg0)) (WR (Proc.devRef .tc Cert.ReferenceIdeal.main_arg2)) := by
  after_results_simp
theorem dot1_keep_v3 : (Cert.ReferenceIdeal.Fold.dot1 (F := F)).result WR (Proc.devRef .tc Cert.ReferenceIdeal.main_v3) = WR (Proc.devRef .tc Cert.ReferenceIdeal.main_v3) := by
  after_results_simp
theorem dot1_keep_v6 : (Cert.ReferenceIdeal.Fold.dot1 (F := F)).result WR (Proc.devRef .tc Cert.ReferenceIdeal.main_v6) = WR (Proc.devRef .tc Cert.ReferenceIdeal.main_v6) := by
  after_results_simp
theorem dot1_keep_v16 : (Cert.ReferenceIdeal.Fold.dot1 (F := F)).result WR (Proc.devRef .tc Cert.ReferenceIdeal.main_v16) = WR (Proc.devRef .tc Cert.ReferenceIdeal.main_v16) := by
  after_results_simp
theorem dot1_keep_arg3 : (Cert.ReferenceIdeal.Fold.dot1 (F := F)).result WR (Proc.devRef .tc Cert.ReferenceIdeal.main_arg3) = WR (Proc.devRef .tc Cert.ReferenceIdeal.main_arg3) := by
  after_results_simp
theorem dot1_keep_arg4 : (Cert.ReferenceIdeal.Fold.dot1 (F := F)).result WR (Proc.devRef .tc Cert.ReferenceIdeal.main_arg4) = WR (Proc.devRef .tc Cert.ReferenceIdeal.main_arg4) := by
  after_results_simp
theorem dot1_keep_arg5 : (Cert.ReferenceIdeal.Fold.dot1 (F := F)).result WR (Proc.devRef .tc Cert.ReferenceIdeal.main_arg5) = WR (Proc.devRef .tc Cert.ReferenceIdeal.main_arg5) := by
  after_results_simp

/-- The second product writes `relu(…) · W2` into its result buffer. -/
theorem dot2_v60 :
    (Cert.ReferenceIdeal.Fold.dot2 (F := F)).result WR (Proc.devRef .tc Cert.ReferenceIdeal.main_v60)
      = Host.dotGeneral (φ₁ := .f32) (φ₂ := .f32) Cert.ReferenceIdeal.dot_S50000x128_S128x128_S50000x128_1_0_0_1_n_n none (WR (Proc.devRef .tc Cert.ReferenceIdeal.main_v49)) (WR (Proc.devRef .tc Cert.ReferenceIdeal.main_arg4)) := by
  after_results_simp
theorem dot2_keep_v3 : (Cert.ReferenceIdeal.Fold.dot2 (F := F)).result WR (Proc.devRef .tc Cert.ReferenceIdeal.main_v3) = WR (Proc.devRef .tc Cert.ReferenceIdeal.main_v3) := by
  after_results_simp
theorem dot2_keep_v6 : (Cert.ReferenceIdeal.Fold.dot2 (F := F)).result WR (Proc.devRef .tc Cert.ReferenceIdeal.main_v6) = WR (Proc.devRef .tc Cert.ReferenceIdeal.main_v6) := by
  after_results_simp
theorem dot2_keep_v59 : (Cert.ReferenceIdeal.Fold.dot2 (F := F)).result WR (Proc.devRef .tc Cert.ReferenceIdeal.main_v59) = WR (Proc.devRef .tc Cert.ReferenceIdeal.main_v59) := by
  after_results_simp
theorem dot2_keep_arg5 : (Cert.ReferenceIdeal.Fold.dot2 (F := F)).result WR (Proc.devRef .tc Cert.ReferenceIdeal.main_arg5) = WR (Proc.devRef .tc Cert.ReferenceIdeal.main_arg5) := by
  after_results_simp

/-! ## The middle stretch: the first layer's aggregation, bias and relu; the degree normalisation once more -/

set_option maxHeartbeats 8000000 in
/-- The hidden activations: gather the transformed rows at the source nodes, scale each by the two endpoints' normalisations, scatter-add into the destination rows, add the bias, clamp below at zero. -/
theorem mid_v49
    (h17 : WK (Proc.devRef .tc main_v17) = WR (Proc.devRef .tc Cert.ReferenceIdeal.main_v17))
    (h3 : WK (Proc.devRef .tc main_v3) = WR (Proc.devRef .tc Cert.ReferenceIdeal.main_v3))
    (h6 : WK (Proc.devRef .tc main_v6) = WR (Proc.devRef .tc Cert.ReferenceIdeal.main_v6))
    (h16 : WK (Proc.devRef .tc main_v16) = WR (Proc.devRef .tc Cert.ReferenceIdeal.main_v16))
    (ha3 : WK (Proc.devRef .tc main_arg3) = WR (Proc.devRef .tc Cert.ReferenceIdeal.main_arg3)) :
    after hostOps1_3 (after hostOps1_2 (after hostOps1_1 (after hostOps1 WK))) (Proc.devRef .tc main_v49)
      = after Cert.ReferenceIdeal.Fold.opsB WR (Proc.devRef .tc Cert.ReferenceIdeal.main_v49) := by
  after_results_simp
  rw [h17, h3, h6, h16, ha3]
  rfl

/-- The degree normalisation, computed again from the destination nodes alone. -/
theorem mid_v59
    (h6 : WK (Proc.devRef .tc main_v6) = WR (Proc.devRef .tc Cert.ReferenceIdeal.main_v6)) :
    after hostOps1_3 (after hostOps1_2 (after hostOps1_1 (after hostOps1 WK))) (Proc.devRef .tc main_v59)
      = after Cert.ReferenceIdeal.Fold.opsB WR (Proc.devRef .tc Cert.ReferenceIdeal.main_v59) := by
  after_results_simp
  rw [h6]
  rfl

/-- The stretch does not write this buffer: it passes through. -/
theorem mid_v3
    (h : WK (Proc.devRef .tc main_v3) = WR (Proc.devRef .tc Cert.ReferenceIdeal.main_v3)) :
    after hostOps1_3 (after hostOps1_2 (after hostOps1_1 (after hostOps1 WK))) (Proc.devRef .tc main_v3)
      = after Cert.ReferenceIdeal.Fold.opsB WR (Proc.devRef .tc Cert.ReferenceIdeal.main_v3) := by
  after_results_simp
  exact h

/-- The stretch does not write this buffer: it passes through. -/
theorem mid_v6
    (h : WK (Proc.devRef .tc main_v6) = WR (Proc.devRef .tc Cert.ReferenceIdeal.main_v6)) :
    after hostOps1_3 (after hostOps1_2 (after hostOps1_1 (after hostOps1 WK))) (Proc.devRef .tc main_v6)
      = after Cert.ReferenceIdeal.Fold.opsB WR (Proc.devRef .tc Cert.ReferenceIdeal.main_v6) := by
  after_results_simp
  exact h

/-- The stretch does not write this buffer: it passes through. -/
theorem mid_arg4
    (h : WK (Proc.devRef .tc main_arg4) = WR (Proc.devRef .tc Cert.ReferenceIdeal.main_arg4)) :
    after hostOps1_3 (after hostOps1_2 (after hostOps1_1 (after hostOps1 WK))) (Proc.devRef .tc main_arg4)
      = after Cert.ReferenceIdeal.Fold.opsB WR (Proc.devRef .tc Cert.ReferenceIdeal.main_arg4) := by
  after_results_simp
  exact h

/-- The stretch does not write this buffer: it passes through. -/
theorem mid_arg5
    (h : WK (Proc.devRef .tc main_arg5) = WR (Proc.devRef .tc Cert.ReferenceIdeal.main_arg5)) :
    after hostOps1_3 (after hostOps1_2 (after hostOps1_1 (after hostOps1 WK))) (Proc.devRef .tc main_arg5)
      = after Cert.ReferenceIdeal.Fold.opsB WR (Proc.devRef .tc Cert.ReferenceIdeal.main_arg5) := by
  after_results_simp
  exact h

/-! ## The last stretch: the second layer's aggregation and bias -/

set_option maxHeartbeats 8000000 in
/-- The result: gather the transformed hidden rows at the source nodes, scale by the two normalisations, scatter-add into the destination rows, add the bias. -/
theorem tail_v91
    (h60 : WK (Proc.devRef .tc main_v60) = WR (Proc.devRef .tc Cert.ReferenceIdeal.main_v60))
    (h3 : WK (Proc.devRef .tc main_v3) = WR (Proc.devRef .tc Cert.ReferenceIdeal.main_v3))
    (h6 : WK (Proc.devRef .tc main_v6) = WR (Proc.devRef .tc Cert.ReferenceIdeal.main_v6))
    (h59 : WK (Proc.devRef .tc main_v59) = WR (Proc.devRef .tc Cert.ReferenceIdeal.main_v59))
    (ha5 : WK (Proc.devRef .tc main_arg5) = WR (Proc.devRef .tc Cert.ReferenceIdeal.main_arg5)) :
    after hostOps2 WK (Proc.devRef .tc main_v91)
      = after Cert.ReferenceIdeal.Fold.opsC WR (Proc.devRef .tc Cert.ReferenceIdeal.main_v91) := by
  after_results_simp
  rw [h60, h3, h6, h59, ha5]
  rfl

end Cert.KernelIdeal.Pair

end
-- ==== Proof.Rows0.lean ====
/-
  Region 0 of the kernel, at the ideal instance: the pipeline walks the 50000 rows of `x` in ten blocks of 5000
  rows, multiplies each block by the whole of `W1` into a zero accumulator and writes the product back as the
  same rows of the output. A row block of a matrix product is the product of the row block, so after the ten
  write-backs the output array holds the whole product `x · W1`, the contraction read as the sum over the 256
  columns of `x`.
-/
import proofs.«136716_j46703474376725_1_alg».proof.Proof.Gen.KernelIdeal.Frame
import proofs.«136716_j46703474376725_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Rows0

open Idealize.ShloMosaic Idealize.ShloMosaic.TcCoe Idealize.SL.Sem
open Cert.KernelIdeal Cert.KernelIdeal.Gen
open Idealize.ShloMosaic.ValueIdx
open scoped BigOperators

/-! ## The whole product at an index

The contraction of the whole arrays has one axis, the 256 columns of the left operand, which are the 256 rows of the
right one. Its index set is identified with `Fin 256`, and the two operand indices are read coordinate by coordinate:
the left operand at (row of the result, `k`), the right one at (`k`, column of the result). -/

theorem whole_lhs_0 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 0).val = (i 0).val := by
  unfold DotDims.lhsIdx
  rw [dif_neg (show ¬(0 : Fin S50000x256.rank) ∈ Cert.ReferenceIdeal.dot_S50000x256_S256x128_S50000x128_1_0_0_1_n_n.lhsBatch by decide), dif_pos (show (0 : Fin S50000x256.rank) ∈ Cert.ReferenceIdeal.dot_S50000x256_S256x128_S50000x128_1_0_0_1_n_n.lhsNonContracting by decide)]
  rfl
theorem whole_lhs_1 (i : S50000x128.Idx) (q : Cert.ReferenceIdeal.dot_S50000x256_S256x128_S50000x128_1_0_0_1_n_n.contr.Idx) :
    (Cert.ReferenceIdeal.dot_S50000x256_S256x128_S50000x128_1_0_0_1_n_n.lhsIdx i q 1).val = (q ⟨0, by decide⟩).val :=
  Cert.ReferenceIdeal.dot_S50000x256_S256x128_S50000x128_1_0_0_1_n_n.lhsIdx_val_of_single rfl i q
theorem whole_rhs_0 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 0).val = (q ⟨0, by decide⟩).val :=
  Cert.ReferenceIdeal.dot_S50000x256_S256x128_S50000x128_1_0_0_1_n_n.rhsIdx_val_of_single rfl i q
theorem whole_rhs_1 (i : S50000x128.Idx) (q : Cert.ReferenceIdeal.dot_S50000x256_S256x128_S50000x128_1_0_0_1_n_n.contr.Idx) :
    (Cert.ReferenceIdeal.dot_S50000x256_S256x128_S50000x128_1_0_0_1_n_n.rhsIdx i q 1).val = (i 1).val := by
  unfold DotDims.rhsIdx
  rw [dif_neg (show ¬(1 : Fin S256x128.rank) ∈ Cert.ReferenceIdeal.dot_S50000x256_S256x128_S50000x128_1_0_0_1_n_n.rhsBatch by decide), dif_pos (show (1 : Fin S256x128.rank) ∈ Cert.ReferenceIdeal.dot_S50000x256_S256x128_S50000x128_1_0_0_1_n_n.rhsNonContracting by decide)]
  rfl

/-- The whole product of the two arrays: what the output array is to hold. -/
abbrev product (X : S50000x256.Idx → Elt Ideal .f32) (W : S256x128.Idx → Elt Ideal .f32) : S50000x128.Idx → Elt Ideal .f32 :=
  Host.dotGeneral (F := Ideal) (φ₁ := .f32) (φ₂ := .f32) Cert.ReferenceIdeal.dot_S50000x256_S256x128_S50000x128_1_0_0_1_n_n none X W

/-- Entry (r, q) of the whole product is the sum over the 256 columns `k` of `X r k * W k q`. -/
theorem product_apply (X : S50000x256.Idx → Elt Ideal .f32) (W : S256x128.Idx → Elt Ideal .f32) (r : Fin 50000) (q : Fin 128) :
    product X W (ix2 r q) = ∑ k : Fin 256, X (ix2 r k) * W (ix2 k q) := by
  unfold product
  simp only [Host.dotGeneral]
  rw [Ideal.dotGeneral_apply, ← Equiv.sum_comp (ValueIdx.contrEquiv1 Cert.ReferenceIdeal.dot_S50000x256_S256x128_S50000x128_1_0_0_1_n_n 256 rfl rfl).symm]
  refine Finset.sum_congr rfl fun k _ => ?_
  have hk := ValueIdx.contrEquiv1_symm_val Cert.ReferenceIdeal.dot_S50000x256_S256x128_S50000x128_1_0_0_1_n_n 256 rfl rfl k
  have el : Cert.ReferenceIdeal.dot_S50000x256_S256x128_S50000x128_1_0_0_1_n_n.lhsIdx (ix2 r q) ((ValueIdx.contrEquiv1 Cert.ReferenceIdeal.dot_S50000x256_S256x128_S50000x128_1_0_0_1_n_n 256 rfl rfl).symm k) = ix2 r k := funext fun a => Fin.ext (by
    match a with
    | ⟨0, _⟩ => exact whole_lhs_0 _ _
    | ⟨1, _⟩ => exact (whole_lhs_1 _ _).trans hk)
  have er : Cert.ReferenceIdeal.dot_S50000x256_S256x128_S50000x128_1_0_0_1_n_n.rhsIdx (ix2 r q) ((ValueIdx.contrEquiv1 Cert.ReferenceIdeal.dot_S50000x256_S256x128_S50000x128_1_0_0_1_n_n 256 rfl rfl).symm k) = ix2 k q := funext fun a => Fin.ext (by
    match a with
    | ⟨0, _⟩ => exact (whole_rhs_0 _ _).trans hk
    | ⟨1, _⟩ => exact whole_rhs_1 _ _)
  rw [el, er]

/-! ## The product of one block at an index

The body's matrix unit contracts the same axis of a block of 5000 rows into a zero accumulator; its operands'
narrowing to bf16 is the identity on the extended reals. -/

theorem block_lhs_0 (j : S5000x128.Idx) (q : dot_S5000x256_S256x128_S5000x128_1_0_0_1_n_n.contr.Idx) :
    (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem block_lhs_1 (j : S5000x128.Idx) (q : dot_S5000x256_S256x128_S5000x128_1_0_0_1_n_n.contr.Idx) :
    (dot_S5000x256_S256x128_S5000x128_1_0_0_1_n_n.lhsIdx j q 1).val = (q ⟨0, by decide⟩).val :=
  dot_S5000x256_S256x128_S5000x128_1_0_0_1_n_n.lhsIdx_val_of_single rfl j q
theorem block_rhs_0 (j : S5000x128.Idx) (q : dot_S5000x256_S256x128_S5000x128_1_0_0_1_n_n.contr.Idx) :
    (dot_S5000x256_S256x128_S5000x128_1_0_0_1_n_n.rhsIdx j q 0).val = (q ⟨0, by decide⟩).val :=
  dot_S5000x256_S256x128_S5000x128_1_0_0_1_n_n.rhsIdx_val_of_single rfl j q
theorem block_rhs_1 (j : S5000x128.Idx) (q : dot_S5000x256_S256x128_S5000x128_1_0_0_1_n_n.contr.Idx) :
    (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Entry (p, q) of the body's payload is the sum over the 256 columns `k` of `x p k * w k q`. -/
theorem payload_apply (x : Vec Ideal S5000x256 .f32) (w : Vec Ideal S256x128 .f32) (p : Fin 5000) (q : Fin 128) :
    k0_pay1 (F := Ideal) x w (ix2 p q) = ∑ k : Fin 256, x (ix2 p k) * w (ix2 k q) := by
  unfold k0_pay1
  refine (Ideal.matmul_constant_zero_apply dot_S5000x256_S256x128_S5000x128_1_0_0_1_n_n none _ _ (ix2 p q)).trans ?_
  rw [← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx (ix2 p q) ((ValueIdx.contrEquiv1 dot_S5000x256_S256x128_S5000x128_1_0_0_1_n_n 256 rfl rfl).symm k) = ix2 p k := funext fun a => Fin.ext (by
    match a with
    | ⟨0, _⟩ => exact block_lhs_0 _ _
    | ⟨1, _⟩ => exact (block_lhs_1 _ _).trans hk)
  have er : dot_S5000x256_S256x128_S5000x128_1_0_0_1_n_n.rhsIdx (ix2 p q) ((ValueIdx.contrEquiv1 dot_S5000x256_S256x128_S5000x128_1_0_0_1_n_n 256 rfl rfl).symm k) = ix2 k q := funext fun a => Fin.ext (by
    match a with
    | ⟨0, _⟩ => exact (block_rhs_0 _ _).trans hk
    | ⟨1, _⟩ => exact block_rhs_1 _ _)
  rw [el, er]
  rfl

/-! ## A row block of the product is the product of the row block -/

/-- If `x` is the block of rows `n * 5000 + p` of `X` and `w` is all of `W`, the block's product at (p, q) is the
    whole product at that row and column `q`: the two sums over the 256 columns agree term by term. -/
theorem block_product (X : S50000x256.Idx → Elt Ideal .f32) (W : S256x128.Idx → Elt Ideal .f32)
    (x : Vec Ideal S5000x256 .f32) (w : Vec Ideal S256x128 .f32) (r : Fin 50000) (p : Fin 5000) (q : Fin 128)
    (hx : ∀ k : Fin 256, x (ix2 p k) = X (ix2 r k)) (hw : ∀ k : Fin 256, w (ix2 k q) = W (ix2 k q)) :
    k0_pay1 (F := Ideal) x w (ix2 p q) = product X W (ix2 r q) := by
  rw [payload_apply, product_apply]
  exact Finset.sum_congr rfl fun k _ => by rw [hx k, hw k]

/-! ## What a point writes back -/

theorem zero_offsets : (![0, 0] : Fin 2 → Nat) = fun _ => 0 := funext fun a => by fin_cases a <;> rfl

/-- The printed index maps, decided over the ten points: the left operand's row block moves with the output's, on the
    column axis every block index is 0, the right operand's block is always the whole array, and the output's row
    block index stays below 10. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every one of the ten row blocks is some point's. -/
theorem index_onto : ∀ b : Fin 10, ∃ t : Fin cfg0.N, win0_2.index t = ![b.val, 0] :=
  (by decide +kernel : ∀ b : Fin 10, ∃ t : Fin grid0.N, win0_2.index t = ![b.val, 0])

/-- What point `t` writes back is block `t` of the whole product of the operand arrays as the region finds them. -/
theorem flushed_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (product (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x256) zero_offsets, View.ld_unit_zero (S := S256x128) zero_offsets]
  obtain ⟨e0, e1, e2, e3, e4, e5⟩ := index_facts t
  funext j
  have hp : (j 0).val < 5000 := (j 0).isLt
  have hq : (j 1).val < 128 := (j 1).isLt
  have hr : win0_2.index t (0 : Fin 2) * 5000 + 1 * (j 0).val < 50000 := by omega
  show k0_pay1 (F := Ideal) (iblk0 V c 0 t) (iblk0 V c 1 t) ((win0 2).xinj (grid0.coords t) j)
    = product (V c main_arg0) (V c main_arg2) (((cfg0.win 2).blk t).view.emb j)
  -- the index inside the block, and the array index it is written to, by coordinates
  have hj : (win0 2).xinj (grid0.coords t) j = ix2 (⟨(j 0).val, hp⟩ : Fin 5000) (⟨(j 1).val, hq⟩ : Fin 128) :=
    funext fun a => Fin.ext (by
      match a with
      | ⟨0, _⟩ => rfl
      | ⟨1, _⟩ => rfl)
  have hi : ((cfg0.win 2).blk t).view.emb j
      = ix2 (⟨win0_2.index t (0 : Fin 2) * 5000 + 1 * (j 0).val, hr⟩ : Fin 50000) (⟨(j 1).val, hq⟩ : Fin 128) :=
    funext fun a => Fin.ext (by
      match a with
      | ⟨0, _⟩ => show win0_2.index t (0 : Fin 2) * 5000 + 1 * (j 0).val = win0_2.index t (0 : Fin 2) * 5000 + 1 * (j 0).val; rfl
      | ⟨1, _⟩ => show win0_2.index t (1 : Fin 2) * 128 + 1 * (j 1).val = (j 1).val; omega)
  rw [hj, hi]
  refine block_product _ _ _ _ _ _ _ (fun k => ?_) (fun k => ?_)
  · -- row p of the left operand's block at point t is row (block index) * 5000 + p of the array
    have hx : ((cfg0.win 0).blk t).view.emb (ix2 (⟨(j 0).val, hp⟩ : Fin 5000) k)
        = ix2 (⟨win0_2.index t (0 : Fin 2) * 5000 + 1 * (j 0).val, hr⟩ : Fin 50000) k :=
      funext fun a => Fin.ext (by
        match a with
        | ⟨0, _⟩ => show win0_0.index t (0 : Fin 2) * 5000 + 1 * (j 0).val = win0_2.index t (0 : Fin 2) * 5000 + 1 * (j 0).val; omega
        | ⟨1, _⟩ => show win0_0.index t (1 : Fin 2) * 256 + 1 * k.val = k.val; omega)
    show V c main_arg0 (((cfg0.win 0).blk t).view.emb (ix2 (⟨(j 0).val, hp⟩ : Fin 5000) k)) = _
    rw [hx]
  · -- the right operand's block is the whole array at every point
    have hw : ((cfg0.win 1).blk t).view.emb (ix2 k (⟨(j 1).val, hq⟩ : Fin 128)) = ix2 k (⟨(j 1).val, hq⟩ : Fin 128) :=
      funext fun a => Fin.ext (by
        match a with
        | ⟨0, _⟩ => show win0_1.index t (0 : Fin 2) * 256 + 1 * k.val = k.val; omega
        | ⟨1, _⟩ => show win0_1.index t (1 : Fin 2) * 128 + 1 * (j 1).val = (j 1).val; omega)
    show V c main_arg2 (((cfg0.win 1).blk t).view.emb (ix2 k (⟨(j 1).val, hq⟩ : Fin 128))) = _
    rw [hw]

/-! ## The ten blocks cover the array -/

/-- An index of the output array is in point `t`'s block iff each coordinate is in the block's range on its axis. -/
theorem mem_blk (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v17).slice (win0_2.rect t)).set ↔ _
  rw [View.set_slice_whole, Rect.mem_set_unit]
  exact Iff.rfl

/-- Row `r` of the 50000 lies in the block of the point whose row block index is `r / 5000`, and that point writes back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := index_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The output array of region 0 after the run is the whole product of the two operand arrays as the region
    finds them. -/
theorem arr_eq (V : (c : Dev nD) → (b : Ref sig .tc) → Buf (Elt Ideal) ((c : Thread nD τ).loc b)) (c : Dev nD) :
    (dat0 (F := Ideal) V c).arrAt 2 cfg0.N
      = Host.dotGeneral (F := Ideal) (φ₁ := .f32) (φ₂ := .f32) Cert.ReferenceIdeal.dot_S50000x256_S256x128_S50000x128_1_0_0_1_n_n none
          (V c main_arg0) (V c main_arg2) := by
  exact (dat0 (F := Ideal) V c).arrAt_eq_of_cover 2 (product (V c main_arg0) (V c main_arg2)) (fun t _ => flushed_eq V c t) cover

end Cert.KernelIdeal.Rows0

end
-- ==== Proof.Rows1.lean ====
/-
  Region 1 of the kernel, at the ideal instance: the pipeline walks the 50000 rows of the hidden activations in
  ten blocks of 5000 rows, multiplies each block by the whole of `W2` into a zero accumulator and writes the
  product back as the same rows of the output. A row block of a matrix product is the product of the row block,
  so after the ten write-backs the output array holds the whole product, the contraction read as the sum over
  the 128 hidden columns.
-/
import proofs.«136716_j46703474376725_1_alg».proof.Proof.Gen.KernelIdeal.Frame
import proofs.«136716_j46703474376725_1_alg».proof.Proof.Gen.ReferenceIdeal
import Idealize.ShloMosaic.Lib.Pipeline.Value
import Idealize.ShloMosaic.Lib.ValueIdx
import Idealize.ShloMosaic.PureOps.Ideal.Laws

noncomputable section

namespace Cert.KernelIdeal.Rows1

open Idealize.ShloMosaic Idealize.ShloMosaic.TcCoe Idealize.SL.Sem
open Cert.KernelIdeal Cert.KernelIdeal.Gen
open Idealize.ShloMosaic.ValueIdx
open scoped BigOperators

/-! ## The whole product at an index

The contraction of the whole arrays has one axis, the 128 columns of the left operand, which are the 128 rows of the
right one. Its index set is identified with `Fin 128`, and the two operand indices are read coordinate by coordinate:
the left operand at (row of the result, `k`), the right one at (`k`, column of the result). -/

theorem whole_lhs_0 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 0).val = (i 0).val := by
  unfold DotDims.lhsIdx
  rw [dif_neg (show ¬(0 : Fin S50000x128.rank) ∈ Cert.ReferenceIdeal.dot_S50000x128_S128x128_S50000x128_1_0_0_1_n_n.lhsBatch by decide), dif_pos (show (0 : Fin S50000x128.rank) ∈ Cert.ReferenceIdeal.dot_S50000x128_S128x128_S50000x128_1_0_0_1_n_n.lhsNonContracting by decide)]
  rfl
theorem whole_lhs_1 (i : S50000x128.Idx) (q : Cert.ReferenceIdeal.dot_S50000x128_S128x128_S50000x128_1_0_0_1_n_n.contr.Idx) :
    (Cert.ReferenceIdeal.dot_S50000x128_S128x128_S50000x128_1_0_0_1_n_n.lhsIdx i q 1).val = (q ⟨0, by decide⟩).val :=
  Cert.ReferenceIdeal.dot_S50000x128_S128x128_S50000x128_1_0_0_1_n_n.lhsIdx_val_of_single rfl i q
theorem whole_rhs_0 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 0).val = (q ⟨0, by decide⟩).val :=
  Cert.ReferenceIdeal.dot_S50000x128_S128x128_S50000x128_1_0_0_1_n_n.rhsIdx_val_of_single rfl i q
theorem whole_rhs_1 (i : S50000x128.Idx) (q : Cert.ReferenceIdeal.dot_S50000x128_S128x128_S50000x128_1_0_0_1_n_n.contr.Idx) :
    (Cert.ReferenceIdeal.dot_S50000x128_S128x128_S50000x128_1_0_0_1_n_n.rhsIdx i q 1).val = (i 1).val := by
  unfold DotDims.rhsIdx
  rw [dif_neg (show ¬(1 : Fin S128x128.rank) ∈ Cert.ReferenceIdeal.dot_S50000x128_S128x128_S50000x128_1_0_0_1_n_n.rhsBatch by decide), dif_pos (show (1 : Fin S128x128.rank) ∈ Cert.ReferenceIdeal.dot_S50000x128_S128x128_S50000x128_1_0_0_1_n_n.rhsNonContracting by decide)]
  rfl

/-- The whole product of the two arrays: what the output array is to hold. -/
abbrev product (X : S50000x128.Idx → Elt Ideal .f32) (W : S128x128.Idx → Elt Ideal .f32) : S50000x128.Idx → Elt Ideal .f32 :=
  Host.dotGeneral (F := Ideal) (φ₁ := .f32) (φ₂ := .f32) Cert.ReferenceIdeal.dot_S50000x128_S128x128_S50000x128_1_0_0_1_n_n none X W

/-- Entry (r, q) of the whole product is the sum over the 128 columns `k` of `X r k * W k q`. -/
theorem product_apply (X : S50000x128.Idx → Elt Ideal .f32) (W : S128x128.Idx → Elt Ideal .f32) (r : Fin 50000) (q : Fin 128) :
    product X W (ix2 r q) = ∑ k : Fin 128, X (ix2 r k) * W (ix2 k q) := by
  unfold product
  simp only [Host.dotGeneral]
  rw [Ideal.dotGeneral_apply, ← Equiv.sum_comp (ValueIdx.contrEquiv1 Cert.ReferenceIdeal.dot_S50000x128_S128x128_S50000x128_1_0_0_1_n_n 128 rfl rfl).symm]
  refine Finset.sum_congr rfl fun k _ => ?_
  have hk := ValueIdx.contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 r q) ((ValueIdx.contrEquiv1 Cert.ReferenceIdeal.dot_S50000x128_S128x128_S50000x128_1_0_0_1_n_n 128 rfl rfl).symm k) = ix2 r k := funext fun a => Fin.ext (by
    match a with
    | ⟨0, _⟩ => exact whole_lhs_0 _ _
    | ⟨1, _⟩ => exact (whole_lhs_1 _ _).trans hk)
  have er : Cert.ReferenceIdeal.dot_S50000x128_S128x128_S50000x128_1_0_0_1_n_n.rhsIdx (ix2 r q) ((ValueIdx.contrEquiv1 Cert.ReferenceIdeal.dot_S50000x128_S128x128_S50000x128_1_0_0_1_n_n 128 rfl rfl).symm k) = ix2 k q := funext fun a => Fin.ext (by
    match a with
    | ⟨0, _⟩ => exact (whole_rhs_0 _ _).trans hk
    | ⟨1, _⟩ => exact whole_rhs_1 _ _)
  rw [el, er]

/-! ## The product of one block at an index

The body's matrix unit contracts the same axis of a block of 5000 rows into a zero accumulator; its operands'
narrowing to bf16 is the identity on the extended reals, and the cast of the left block to its own shape is the
identity. -/

theorem block_lhs_0 (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem block_lhs_1 (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem block_rhs_0 (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem block_rhs_1 (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of the body's payload is the sum over the 128 columns `k` of `x p k * w k q`. -/
theorem payload_apply (x : Vec Ideal S5000x128 .f32) (w : Vec Ideal S128x128 .f32) (p : Fin 5000) (q : Fin 128) :
    k1_pay1 (F := Ideal) x w (ix2 p q) = ∑ k : Fin 128, x (ix2 p k) * w (ix2 k q) := by
  unfold k1_pay1
  rw [shapeCast_self]
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact block_lhs_0 _ _
    | ⟨1, _⟩ => exact (block_lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (block_rhs_0 _ _).trans hk
    | ⟨1, _⟩ => exact block_rhs_1 _ _)
  rw [el, er]
  rfl

/-! ## A row block of the product is the product of the row block -/

/-- If `x` is the block of rows `n * 5000 + p` of `X` and `w` is all of `W`, the block's product at (p, q) is the
    whole product at that row and column `q`: the two sums over the 128 columns agree term by term. -/
theorem block_product (X : S50000x128.Idx → Elt Ideal .f32) (W : S128x128.Idx → Elt Ideal .f32)
    (x : Vec Ideal S5000x128 .f32) (w : Vec Ideal S128x128 .f32) (r : Fin 50000) (p : Fin 5000) (q : Fin 128)
    (hx : ∀ k : Fin 128, x (ix2 p k) = X (ix2 r k)) (hw : ∀ k : Fin 128, w (ix2 k q) = W (ix2 k q)) :
    k1_pay1 (F := Ideal) x w (ix2 p q) = product X W (ix2 r q) := by
  rw [payload_apply, product_apply]
  exact Finset.sum_congr rfl fun k _ => by rw [hx k, hw k]

/-! ## What a point writes back -/

theorem zero_offsets : (![0, 0] : Fin 2 → Nat) = fun _ => 0 := funext fun a => by fin_cases a <;> rfl

/-- The printed index maps, decided over the ten points: the left operand's row block moves with the output's, on the
    column axis every block index is 0, the right operand's block is always the whole array, and the output's row
    block index stays below 10. -/
theorem index_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every one of the ten row blocks is some point's. -/
theorem index_onto : ∀ b : Fin 10, ∃ t : Fin cfg1.N, win1_2.index t = ![b.val, 0] :=
  (by decide +kernel : ∀ b : Fin 10, ∃ t : Fin grid1.N, win1_2.index t = ![b.val, 0])

/-- What point `t` writes back is block `t` of the whole product of the operand arrays as the region finds them. -/
theorem flushed_eq (V : (c : Dev nD) → (b : Ref sig .tc) → Buf (Elt Ideal) ((c : Thread nD τ).loc b)) (c : Dev nD) (t : Fin cfg1.N) :
    (dat1 (F := Ideal) V c).flushed 2 t
      = ((cfg1.win 2).blk t).view.read (Elt Ideal) (product (V c main_v49) (V c main_arg4)) := by
  show (cfg1.win 2).cut (grid1.coords t) ((dat1 (F := Ideal) V c).after 2 t) = _
  rw [after1_2]
  unfold out1_2
  rw [View.canon_unit_zero zero_offsets]
  simp only [View.ld_unit_zero (S := S5000x128) zero_offsets, View.ld_unit_zero (S := S128x128) zero_offsets]
  obtain ⟨e0, e1, e2, e3, e4, e5⟩ := index_facts t
  funext j
  have hp : (j 0).val < 5000 := (j 0).isLt
  have hq : (j 1).val < 128 := (j 1).isLt
  have hr : win1_2.index t (0 : Fin 2) * 5000 + 1 * (j 0).val < 50000 := by omega
  show k1_pay1 (F := Ideal) (iblk1 V c 0 t) (iblk1 V c 1 t) ((win1 2).xinj (grid1.coords t) j)
    = product (V c main_v49) (V c main_arg4) (((cfg1.win 2).blk t).view.emb j)
  -- the index inside the block, and the array index it is written to, by coordinates
  have hj : (win1 2).xinj (grid1.coords t) j = ix2 (⟨(j 0).val, hp⟩ : Fin 5000) (⟨(j 1).val, hq⟩ : Fin 128) :=
    funext fun a => Fin.ext (by
      match a with
      | ⟨0, _⟩ => rfl
      | ⟨1, _⟩ => rfl)
  have hi : ((cfg1.win 2).blk t).view.emb j
      = ix2 (⟨win1_2.index t (0 : Fin 2) * 5000 + 1 * (j 0).val, hr⟩ : Fin 50000) (⟨(j 1).val, hq⟩ : Fin 128) :=
    funext fun a => Fin.ext (by
      match a with
      | ⟨0, _⟩ => show win1_2.index t (0 : Fin 2) * 5000 + 1 * (j 0).val = win1_2.index t (0 : Fin 2) * 5000 + 1 * (j 0).val; rfl
      | ⟨1, _⟩ => show win1_2.index t (1 : Fin 2) * 128 + 1 * (j 1).val = (j 1).val; omega)
  rw [hj, hi]
  refine block_product _ _ _ _ _ _ _ (fun k => ?_) (fun k => ?_)
  · -- row p of the left operand's block at point t is row (block index) * 5000 + p of the array
    have hx : ((cfg1.win 0).blk t).view.emb (ix2 (⟨(j 0).val, hp⟩ : Fin 5000) k)
        = ix2 (⟨win1_2.index t (0 : Fin 2) * 5000 + 1 * (j 0).val, hr⟩ : Fin 50000) k :=
      funext fun a => Fin.ext (by
        match a with
        | ⟨0, _⟩ => show win1_0.index t (0 : Fin 2) * 5000 + 1 * (j 0).val = win1_2.index t (0 : Fin 2) * 5000 + 1 * (j 0).val; omega
        | ⟨1, _⟩ => show win1_0.index t (1 : Fin 2) * 128 + 1 * k.val = k.val; omega)
    show V c main_v49 (((cfg1.win 0).blk t).view.emb (ix2 (⟨(j 0).val, hp⟩ : Fin 5000) k)) = _
    rw [hx]
  · -- the right operand's block is the whole array at every point
    have hw : ((cfg1.win 1).blk t).view.emb (ix2 k (⟨(j 1).val, hq⟩ : Fin 128)) = ix2 k (⟨(j 1).val, hq⟩ : Fin 128) :=
      funext fun a => Fin.ext (by
        match a with
        | ⟨0, _⟩ => show win1_1.index t (0 : Fin 2) * 128 + 1 * k.val = k.val; omega
        | ⟨1, _⟩ => show win1_1.index t (1 : Fin 2) * 128 + 1 * (j 1).val = (j 1).val; omega)
    show V c main_arg4 (((cfg1.win 1).blk t).view.emb (ix2 k (⟨(j 1).val, hq⟩ : Fin 128))) = _
    rw [hw]

/-! ## The ten blocks cover the array -/

/-- An index of the output array is in point `t`'s block iff each coordinate is in the block's range on its axis. -/
theorem mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v60).slice (win1_2.rect t)).set ↔ _
  rw [View.set_slice_whole, Rect.mem_set_unit]
  exact Iff.rfl

/-- Row `r` of the 50000 lies in the block of the point whose row block index is `r / 5000`, and that point writes back. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := index_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array of region 1 after the run is the whole product of the two operand arrays as the region
    finds them. -/
theorem arr_eq (V : (c : Dev nD) → (b : Ref sig .tc) → Buf (Elt Ideal) ((c : Thread nD τ).loc b)) (c : Dev nD) :
    (dat1 (F := Ideal) V c).arrAt 2 cfg1.N
      = Host.dotGeneral (F := Ideal) (φ₁ := .f32) (φ₂ := .f32) Cert.ReferenceIdeal.dot_S50000x128_S128x128_S50000x128_1_0_0_1_n_n none
          (V c main_v49) (V c main_arg4) := by
  exact (dat1 (F := Ideal) V c).arrAt_eq_of_cover 2 (product (V c main_v49) (V c main_arg4)) (fun t _ => flushed_eq V c t) cover

end Cert.KernelIdeal.Rows1

end
-- ==== Proof.Bridge.lean ====
/-
  The value of the kernel's run against the reference's, at the ideal instance. Both programs compute a two-layer graph
  convolution: from the edge list, the endpoints with self loops and the inverse square root of the in-degree; then, per
  layer, a feature transform (a matrix product) followed by the normalised gather, scatter-add and bias, with a relu
  between the layers. They differ only in how the two matrix products are computed: the reference by one host
  `dot_general` each, the kernel by a pipelined region that multiplies ten blocks of 5000 rows one after the other. A
  region's output array after its run is the whole product (the two row-block modules), so at every boundary of the
  kernel's run its buffers agree with the reference's after the matching piece of its line, on every buffer a later
  stretch reads; at the last boundary that is the result array.
-/
import proofs.«136716_j46703474376725_1_alg».proof.Proof.KernelIdealRun
import proofs.«136716_j46703474376725_1_alg».proof.Proof.StretchPairs
import proofs.«136716_j46703474376725_1_alg».proof.Proof.Rows0
import proofs.«136716_j46703474376725_1_alg».proof.Proof.Rows1

noncomputable section

namespace Cert.KernelIdeal.Bridge

open Idealize.ShloMosaic Idealize.ShloMosaic.TcCoe Idealize.SL.Sem Idealize.ShloMosaic.StableHlo
open Cert.KernelIdeal Cert.KernelIdeal.Gen Cert.KernelIdeal.Pair

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ) (c : Dev nD)

/-- The reference's buffers at launch. -/
abbrev R0 : Valuation Cert.ReferenceIdeal.τ Cert.ReferenceIdeal.sig (Elt Ideal) := launchContents m' c
/-- After its first stretch. -/
abbrev R2 : Valuation Cert.ReferenceIdeal.τ Cert.ReferenceIdeal.sig (Elt Ideal) := after Cert.ReferenceIdeal.Fold.opsA (R0 m' c)
/-- After its first matrix product. -/
abbrev R3 : Valuation Cert.ReferenceIdeal.τ Cert.ReferenceIdeal.sig (Elt Ideal) := (Cert.ReferenceIdeal.Fold.dot1 (F := Ideal)).result (R2 m' c)
/-- After its middle stretch. -/
abbrev R7 : Valuation Cert.ReferenceIdeal.τ Cert.ReferenceIdeal.sig (Elt Ideal) := after Cert.ReferenceIdeal.Fold.opsB (R3 m' c)
/-- After its second matrix product. -/
abbrev R8 : Valuation Cert.ReferenceIdeal.τ Cert.ReferenceIdeal.sig (Elt Ideal) := (Cert.ReferenceIdeal.Fold.dot2 (F := Ideal)).result (R7 m' c)

/-- From memories that agree on the six arguments, the kernel's result array at the end of its run is the reference's
    result: the fold of the reference's operations over its launch contents. -/
theorem result_eq
    (hag : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    W9 m ρ c (Proc.devRef .tc main_v91)
      = after Cert.ReferenceIdeal.Fold.ops (launchContents m' c) (Proc.devRef .tc Cert.ReferenceIdeal.main_v91) := by
  obtain ⟨h0, h1, h2, h3, h4, h5⟩ := hag
  -- the first boundary: region 0's entry against the reference after its first stretch
  have a0_2 : W2 m ρ c (Proc.devRef .tc main_arg0) = R2 m' c (Proc.devRef .tc Cert.ReferenceIdeal.main_arg0) := pre_arg0 (W0 m ρ c) (R0 m' c) h0.symm
  have a2_2 : W2 m ρ c (Proc.devRef .tc main_arg2) = R2 m' c (Proc.devRef .tc Cert.ReferenceIdeal.main_arg2) := pre_arg2 (W0 m ρ c) (R0 m' c) h2.symm
  have a3_2 : W2 m ρ c (Proc.devRef .tc main_arg3) = R2 m' c (Proc.devRef .tc Cert.ReferenceIdeal.main_arg3) := pre_arg3 (W0 m ρ c) (R0 m' c) h3.symm
  have a4_2 : W2 m ρ c (Proc.devRef .tc main_arg4) = R2 m' c (Proc.devRef .tc Cert.ReferenceIdeal.main_arg4) := pre_arg4 (W0 m ρ c) (R0 m' c) h4.symm
  have a5_2 : W2 m ρ c (Proc.devRef .tc main_arg5) = R2 m' c (Proc.devRef .tc Cert.ReferenceIdeal.main_arg5) := pre_arg5 (W0 m ρ c) (R0 m' c) h5.symm
  have v3_2 : W2 m ρ c (Proc.devRef .tc main_v3) = R2 m' c (Proc.devRef .tc Cert.ReferenceIdeal.main_v3) := pre_v3 (W0 m ρ c) (R0 m' c) h1.symm
  have v6_2 : W2 m ρ c (Proc.devRef .tc main_v6) = R2 m' c (Proc.devRef .tc Cert.ReferenceIdeal.main_v6) := pre_v6 (W0 m ρ c) (R0 m' c) h1.symm
  have v16_2 : W2 m ρ c (Proc.devRef .tc main_v16) = R2 m' c (Proc.devRef .tc Cert.ReferenceIdeal.main_v16) := pre_v16 (W0 m ρ c) (R0 m' c) h1.symm
  -- region 0's exit against the reference after its first product
  have v17_3 : W3 m ρ c (Proc.devRef .tc main_v17) = R3 m' c (Proc.devRef .tc Cert.ReferenceIdeal.main_v17) := by
    refine ((W3_arr m ρ c 2).trans (Rows0.arr_eq (V2 m ρ) c)).trans ?_
    rw [show V2 m ρ c main_arg0 = R2 m' c (Proc.devRef .tc Cert.ReferenceIdeal.main_arg0) from a0_2,
      show V2 m ρ c main_arg2 = R2 m' c (Proc.devRef .tc Cert.ReferenceIdeal.main_arg2) from a2_2]
    exact (dot1_v17 (R2 m' c)).symm
  have v3_3 : W3 m ρ c (Proc.devRef .tc main_v3) = R3 m' c (Proc.devRef .tc Cert.ReferenceIdeal.main_v3) := (W3_of_ne m ρ c main_v3 (by decide)).trans (v3_2.trans (dot1_keep_v3 (R2 m' c)).symm)
  have v6_3 : W3 m ρ c (Proc.devRef .tc main_v6) = R3 m' c (Proc.devRef .tc Cert.ReferenceIdeal.main_v6) := (W3_of_ne m ρ c main_v6 (by decide)).trans (v6_2.trans (dot1_keep_v6 (R2 m' c)).symm)
  have v16_3 : W3 m ρ c (Proc.devRef .tc main_v16) = R3 m' c (Proc.devRef .tc Cert.ReferenceIdeal.main_v16) := (W3_of_ne m ρ c main_v16 (by decide)).trans (v16_2.trans (dot1_keep_v16 (R2 m' c)).symm)
  have a3_3 : W3 m ρ c (Proc.devRef .tc main_arg3) = R3 m' c (Proc.devRef .tc Cert.ReferenceIdeal.main_arg3) := (W3_of_ne m ρ c main_arg3 (by decide)).trans (a3_2.trans (dot1_keep_arg3 (R2 m' c)).symm)
  have a4_3 : W3 m ρ c (Proc.devRef .tc main_arg4) = R3 m' c (Proc.devRef .tc Cert.ReferenceIdeal.main_arg4) := (W3_of_ne m ρ c main_arg4 (by decide)).trans (a4_2.trans (dot1_keep_arg4 (R2 m' c)).symm)
  have a5_3 : W3 m ρ c (Proc.devRef .tc main_arg5) = R3 m' c (Proc.devRef .tc Cert.ReferenceIdeal.main_arg5) := (W3_of_ne m ρ c main_arg5 (by decide)).trans (a5_2.trans (dot1_keep_arg5 (R2 m' c)).symm)
  -- region 1's entry against the reference after its middle stretch
  have v49_7 : W7 m ρ c (Proc.devRef .tc main_v49) = R7 m' c (Proc.devRef .tc Cert.ReferenceIdeal.main_v49) := mid_v49 (W3 m ρ c) (R3 m' c) v17_3 v3_3 v6_3 v16_3 a3_3
  have v59_7 : W7 m ρ c (Proc.devRef .tc main_v59) = R7 m' c (Proc.devRef .tc Cert.ReferenceIdeal.main_v59) := mid_v59 (W3 m ρ c) (R3 m' c) v6_3
  have v3_7 : W7 m ρ c (Proc.devRef .tc main_v3) = R7 m' c (Proc.devRef .tc Cert.ReferenceIdeal.main_v3) := mid_v3 (W3 m ρ c) (R3 m' c) v3_3
  have v6_7 : W7 m ρ c (Proc.devRef .tc main_v6) = R7 m' c (Proc.devRef .tc Cert.ReferenceIdeal.main_v6) := mid_v6 (W3 m ρ c) (R3 m' c) v6_3
  have a4_7 : W7 m ρ c (Proc.devRef .tc main_arg4) = R7 m' c (Proc.devRef .tc Cert.ReferenceIdeal.main_arg4) := mid_arg4 (W3 m ρ c) (R3 m' c) a4_3
  have a5_7 : W7 m ρ c (Proc.devRef .tc main_arg5) = R7 m' c (Proc.devRef .tc Cert.ReferenceIdeal.main_arg5) := mid_arg5 (W3 m ρ c) (R3 m' c) a5_3
  -- region 1's exit against the reference after its second product
  have v60_8 : W8 m ρ c (Proc.devRef .tc main_v60) = R8 m' c (Proc.devRef .tc Cert.ReferenceIdeal.main_v60) := by
    refine ((W8_arr m ρ c 2).trans (Rows1.arr_eq (V7 m ρ) c)).trans ?_
    rw [show V7 m ρ c main_v49 = R7 m' c (Proc.devRef .tc Cert.ReferenceIdeal.main_v49) from v49_7,
      show V7 m ρ c main_arg4 = R7 m' c (Proc.devRef .tc Cert.ReferenceIdeal.main_arg4) from a4_7]
    exact (dot2_v60 (R7 m' c)).symm
  have v3_8 : W8 m ρ c (Proc.devRef .tc main_v3) = R8 m' c (Proc.devRef .tc Cert.ReferenceIdeal.main_v3) := (W8_of_ne m ρ c main_v3 (by decide)).trans (v3_7.trans (dot2_keep_v3 (R7 m' c)).symm)
  have v6_8 : W8 m ρ c (Proc.devRef .tc main_v6) = R8 m' c (Proc.devRef .tc Cert.ReferenceIdeal.main_v6) := (W8_of_ne m ρ c main_v6 (by decide)).trans (v6_7.trans (dot2_keep_v6 (R7 m' c)).symm)
  have v59_8 : W8 m ρ c (Proc.devRef .tc main_v59) = R8 m' c (Proc.devRef .tc Cert.ReferenceIdeal.main_v59) := (W8_of_ne m ρ c main_v59 (by decide)).trans (v59_7.trans (dot2_keep_v59 (R7 m' c)).symm)
  have a5_8 : W8 m ρ c (Proc.devRef .tc main_arg5) = R8 m' c (Proc.devRef .tc Cert.ReferenceIdeal.main_arg5) := (W8_of_ne m ρ c main_arg5 (by decide)).trans (a5_7.trans (dot2_keep_arg5 (R7 m' c)).symm)
  -- the last stretch
  rw [Cert.ReferenceIdeal.Fold.after_ops]
  exact tail_v91 (W8 m ρ c) (R8 m' c) v60_8 v3_8 v6_8 v59_8 a5_8

end Cert.KernelIdeal.Bridge

end
-- ==== Proof.lean ====
/-
  The certificate of a two-layer graph convolution on TPU against its jnp reference, over the extended reals.

  Both programs take node features `x`, an edge list, and two weight matrices with their biases. From the edge list they
  form the source and destination node of every edge with a self loop appended for every node, the in-degree of every
  node (a scatter-add of ones), and its inverse square root where the degree is positive. Each layer is then a feature
  transform, a matrix product with the layer's weights, followed by the normalised aggregation: gather the transformed
  row of every edge's source, scale it by the two endpoints' normalisations, scatter-add it into the destination's row,
  add the bias; a relu stands between the layers. The reference computes each matrix product by one `dot_general` on the
  host. The kernel computes it in a pipelined region: the 50000 rows in ten blocks of 5000, each block cast to bf16,
  multiplied by the whole weight matrix into a zero f32 accumulator, and written back as the same rows of the output.

  Over the extended reals a change of float format is the identity and a product into a zero accumulator is the plain sum
  over the contracted axis, and a row block of a matrix product is the product of the row block: so each region leaves
  the whole product in its output array, which is what the reference's `dot_general` computes. Every other operation is
  the same host operation in both programs, applied to equal operands. No algebraic law beyond this is used, and the
  finiteness of the inputs is never opened.

  The frames: the kernel's two (at the word level and idealized) are its run through nine segments, host stretches and
  the two regions, with every argument array read back to its launch contents; the reference's is its straight line of
  host operations, none of which writes an argument. The ideal pass rewrote no operation, so `preserves` is `True`.
-/
import proofs.«136716_j46703474376725_1_alg».proof.Defs
import proofs.«136716_j46703474376725_1_alg».proof.Proof.Gen.Kernel
import proofs.«136716_j46703474376725_1_alg».proof.Proof.Gen.Kernel.Frame
import proofs.«136716_j46703474376725_1_alg».proof.Proof.Gen.KernelIdeal
import proofs.«136716_j46703474376725_1_alg».proof.Proof.Gen.KernelIdeal.Frame
import proofs.«136716_j46703474376725_1_alg».proof.Proof.Gen.ReferenceIdeal
import proofs.«136716_j46703474376725_1_alg».proof.Proof.Gen.Pre_finite_inputs
import proofs.«136716_j46703474376725_1_alg».proof.Proof.KernelIdealRun
import proofs.«136716_j46703474376725_1_alg».proof.Proof.ReferenceRun
import proofs.«136716_j46703474376725_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs, nothing faulting, and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, the result array dropped. -/
theorem frame_referenceIdeal : Cert.frame_ReferenceIdeal := fun m ρ _ =>
  (θ_run Cert.ReferenceIdeal.defs _ _).mono (fun _ h c => (h c).2) (Cert.ReferenceIdeal.Fold.run (F := Ideal) m ρ)

/-- The ideal pass rewrote no operation of the kernel. -/
theorem preserves : Cert.preserves_Kernel_KernelIdeal := trivial

/-- From memories agreeing on the arguments both idealized programs run and end with the same result array: the
    kernel's at its last segment boundary, which is the fold of the reference's operations over its launch contents. -/
theorem algebraic : Cert.algebraic_KernelIdeal_ReferenceIdeal := by
  intro m ρ m' ρ' _ hagree
  refine ⟨fun c => Cert.KernelIdeal.Gen.W9 m ρ c (Proc.devRef .tc Cert.KernelIdeal.main_v91),
    Cert.KernelIdeal.Gen.run_result (F := Ideal) m ρ, ?_⟩
  refine (θ_run Cert.ReferenceIdeal.defs _ _).mono (fun _ h c => ⟨(h c).1.trans ?_, (h c).2⟩)
    (Cert.ReferenceIdeal.Fold.run (F := Ideal) m' ρ')
  exact (Cert.KernelIdeal.Bridge.result_eq m ρ m' c (hagree c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
